-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1x128 : Shape := ⟨2, ![1, 128]⟩
abbrev S1 : Shape := ⟨1, ![1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x64 .f32) (main_arg1 : FVec F S1x128 .f32) (main_arg2 : FVec F S1 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x64 : Shape := ⟨2, ![100000, 64]⟩
abbrev S1x128 : Shape := ⟨2, ![1, 128]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1x64 : Shape := ⟨2, ![1, 64]⟩
abbrev S1x1 : Shape := ⟨2, ![1, 1]⟩
abbrev S16000x64 : Shape := ⟨2, ![16000, 64]⟩
abbrev S16000x1 : Shape := ⟨2, ![16000, 1]⟩
abbrev S16000 : Shape := ⟨1, ![16000]⟩

abbrev nBuf : Space → Nat
  | .hbm => 64
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S1x128, .f32⟩
  | .hbm, ⟨2, _⟩ => ⟨S1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S1600000x1, .f32⟩
  | .hbm, ⟨56, _⟩ => ⟨S1x64, .f32⟩
  | .hbm, ⟨57, _⟩ => ⟨S1x64, .f32⟩
  | .hbm, ⟨58, _⟩ => ⟨S1x1, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S1x64, .f32⟩
  | .local _ .vmem, ⟨5, _⟩ => ⟨S1x64, .f32⟩
  | .local _ .vmem, ⟨6, _⟩ => ⟨S1x1, .f32⟩
  | .local _ .vmem, ⟨7, _⟩ => ⟨S16000x1, .f32⟩
  | .local _ .vmem, ⟨8, _⟩ => ⟨S16000x1, .f32⟩
  | .local _ .vmem, ⟨9, _⟩ => ⟨S16000x64, .f32⟩
  | .local _ .vmem, ⟨10, _⟩ => ⟨S16000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S1x128_S1x64_0_0 : S1x128.Slices ![0, 0] S1x64
  slices_S1x128_S1x64_0_64 : S1x128.Slices ![0, 64] S1x64
  shapeCasts_S1_S1x1 : S1.ShapeCasts S1x1
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  reduces_S16000x64_S16000 : S16000x64.Reduces [1] S16000
  shapeCasts_S16000_S16000x1 : S16000.ShapeCasts S16000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x64 : S16000x1.Broadcasts S16000x64
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1600000x64.size a
  hwx0_1 : ∀ i : grid0.Coords, EltTy.bits .f32 = 32 ∨ (Rect.block (s := S1600000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x1.size a ≤ S1600000x1.size a
  hwx0_5 : ∀ i : grid0.Coords, EltTy.bits .f32 = 32 ∨ (Rect.block (s := S1600000x1) S16000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16000x64.size a ≤ S1600000x64.size a
  hwx0_6 : ∀ i : grid0.Coords, EltTy.bits .f32 = 32 ∨ (Rect.block (s := S1600000x64) S16000x64.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v20) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S16000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40) S16000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1x128 : Shape := ⟨2, ![1, 128]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S1600000x128 : Shape := ⟨2, ![1600000, 128]⟩
abbrev S128x1 : Shape := ⟨2, ![128, 1]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1x128, .f32⟩
  | .hbm, ⟨2, _⟩ => ⟨S1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x128, .f32⟩
  | .hbm, ⟨37, _⟩ => ⟨S128x1, .f32⟩
  | .hbm, ⟨38, _⟩ => ⟨S1600000x1, .f32⟩
  | .hbm, ⟨39, _⟩ => ⟨S1x1, .f32⟩
  | .hbm, ⟨40, _⟩ => ⟨S1600000x1, .f32⟩
  | .hbm, ⟨41, _⟩ => ⟨S1600000x1, .f32⟩
  | .hbm, ⟨42, _⟩ => ⟨S1600000x1, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S1600000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000, .f32⟩
  | .hbm, ⟨63, _⟩ => ⟨S1600000, .f32⟩
  | .hbm, ⟨64, _⟩ => ⟨S1600000x1, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  transposes_S1x128_S128x1_1_0 : S1x128.Transposes [1, 0] S128x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  dot_S1600000x128_S128x1_S1600000x1_1_0_0_1_n_n_wf : DotDims.WF S1600000x128 S128x1 S1600000x1 [1] [0] [0] [1] [] []
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.GateLaw.lean ====
/-
  The mathematics shared by both programs, free of either program's text.

  For one edge `p` with destination row `hd`, source row `hs` (64 features each), gate weights `wd`, `ws`
  (the two halves of the 128 gate weights), bias `b` and degree factor `np`, feature `x` of the source row is sent as

      x · ( tanh( (Σₖ hd k · wd k  +  Σₖ hs k · ws k)  +  b ) · np ).

  The kernel computes it in exactly this grouping. The reference contracts the concatenated 128-vector against the
  128 weights in one sum and multiplies the gate by the destination's and the source's degree factors one after the
  other; on the extended reals the two readings agree by splitting the sum over `Fin 128` at 64 and by the
  commutativity and associativity of the product alone, so no finiteness is used.

-/
import Idealize.ShloMosaic.PureOps.Ideal
import Idealize.ShloMosaic.PureOps.Ideal.Laws
import Idealize.ShloMosaic.Lib.ValueIdx

noncomputable section

namespace Cert.GateMsg

open Idealize.ShloMosaic Idealize.ShloMosaic.ValueIdx

/-! ## The message entry -/

/-- Feature `x` of a source row, scaled by the edge's gate `tanh (⟨hd, wd⟩ + ⟨hs, ws⟩ + b)` and its degree factor `np`. -/
def gateEntry (hd hs wd ws : Fin 64 → EReal) (b np x : EReal) : EReal :=
  x * (Ideal.tanh (((∑ k : Fin 64, hd k * wd k) + (∑ k : Fin 64, hs k * ws k)) + b) * np)

/-- The entry depends on its seven data only through their values. -/
theorem gateEntry_congr {hd hd' hs hs' wd wd' ws ws' : Fin 64 → EReal} {b b' np np' x x' : EReal}
    (h1 : ∀ k, hd k = hd' k) (h2 : ∀ k, hs k = hs' k) (h3 : ∀ k, wd k = wd' k) (h4 : ∀ k, ws k = ws' k)
    (h5 : b = b') (h6 : np = np') (h7 : x = x') :
    gateEntry hd hs wd ws b np x = gateEntry hd' hs' wd' ws' b' np' x' := by
  rw [funext h1, funext h2, funext h3, funext h4, h5, h6, h7]

/-- The whole message array, 1600000 edges by 64 features, from the gathered destination rows `hd` and source rows `hs`,
    the two weight halves, the bias and the edges' degree factors: entry `(p, q)` is the message entry of edge `p` for
    feature `hs (p, q)`. -/
def msgArr (hd hs : (⟨2, ![1600000, 64]⟩ : Shape).Idx → EReal) (wd ws : Fin 64 → EReal) (b : EReal) (np : Fin 1600000 → EReal) :
    (⟨2, ![1600000, 64]⟩ : Shape).Idx → EReal :=
  fun i => gateEntry (fun k => hd (ix2 (i 0) k)) (fun k => hs (ix2 (i 0) k)) wd ws b (np (i 0)) (hs i)

/-- A sum over 128 terms is the sum of its first 64 and its last 64. -/
theorem sum_128_split (f : Fin 128 → EReal) :
    ∑ k : Fin 128, f k = (∑ k : Fin 64, f (Fin.castAdd 64 k)) + ∑ k : Fin 64, f (Fin.natAdd 64 k) :=
  Fin.sum_univ_add (M := EReal) (a := 64) (b := 64) f

/-- The reference's grouping of one entry — one contraction over the concatenated row `cat` against all 128 weights `w`,
    then the destination's factor `nd`, then the source's `ns` — is the kernel's, whose degree factor is `ns · nd`. -/
theorem ref_grouping (hd hs wd ws : Fin 64 → EReal) (cat w : Fin 128 → EReal) (b nd ns x : EReal)
    (hcd : ∀ k : Fin 64, cat (Fin.castAdd 64 k) = hd k) (hcs : ∀ k : Fin 64, cat (Fin.natAdd 64 k) = hs k)
    (hwd : ∀ k : Fin 64, w (Fin.castAdd 64 k) = wd k) (hws : ∀ k : Fin 64, w (Fin.natAdd 64 k) = ws k) :
    x * ((Ideal.tanh ((∑ k : Fin 128, cat k * w k) + b) * nd) * ns) = gateEntry hd hs wd ws b (ns * nd) x := by
  unfold gateEntry
  rw [sum_128_split]
  simp only [hcd, hcs, hwd, hws]
  rw [mul_assoc (Ideal.tanh _) nd ns, mul_comm nd ns]

end Cert.GateMsg

end
-- ==== Proof.LibColumnLayout.lean ====
/-
  Reading column ("keepdims") shapes at an index, at the ideal values.

  A kernel that keeps a reduced axis as a unit column — a row sum kept as `[a, 1]`, then broadcast back along the row —
  passes through three layout steps the library's index lemmas do not spell for these shapes: a length-`a` vector seen as
  an `a × 1` column (`shapeCast_a_a1_apply`), an `a × 1` column broadcast to `a × b` (`broadcastTo_a1_ab_apply`), and a
  `1 × 1` array broadcast down an `a × 1` column (`broadcastTo_11_a1_apply`). With them, the sum of an `a × b` f32 array
  along its columns from the zero accumulator, read at row `p`, is the plain sum of row `p` (`rowSum_apply`, over
  `lift_row`: the reduced index with a column put back). All are generic in the extents `a`, `b`; nothing here mentions a
  program.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.ColumnLayout

open Idealize.ShloMosaic Idealize.ShloMosaic.ValueIdx

/-! ## Layout readings for column shapes -/

section Layout
variable {α : Type}

/-- A length-`a` vector seen as an `a × 1` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast to `a × b` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × 1` array broadcast down an `a × 1` column reads its one entry everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end Layout

/-! ## A row sum read at a row -/

/-- Over row `p`, the source index whose column is `k`. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- At the ideal values, summing an `a × b` array of f32 along its columns from the zero accumulator gives, at row `p`, the sum of the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.ColumnLayout

end
-- ==== Proof.KernelBlock.lean ====
/-
  One block of the kernel, read entry by entry.

  At a grid point the body holds a block of 16000 edges: the destination rows `x0` and source rows `x1` (16000 × 64),
  the two halves `x2`, `x3` of the gate weights (1 × 64 each), the bias `x4` (1 × 1) and the edges' degree factors
  `x5` (16000 × 1). What it stores at edge `p`, feature `q` is the message entry of `Cert.GateMsg.gateEntry`: the
  source feature times the gate `tanh (⟨x0 p, x2⟩ + ⟨x1 p, x3⟩ + x4)` times the degree factor of edge `p`.
  The two inner products are row sums of elementwise products with the one weight row broadcast over the edges; the
  bias is broadcast down the column of logits; the scaled gate column is broadcast along the features.
-/
import proofs.«103747_j83459804496277_1_alg».proof.Proof.Gen.KernelIdeal.Skeleton
import proofs.«103747_j83459804496277_1_alg».proof.Proof.GateLaw
import proofs.«103747_j83459804496277_1_alg».proof.Proof.LibColumnLayout

noncomputable section

namespace Cert.KernelIdeal.Block

open Cert.KernelIdeal Cert.KernelIdeal.Gen Idealize.ShloMosaic Idealize.ShloMosaic.ValueIdx Cert.GateMsg Cert.ColumnLayout

/-- The column of inner products of the rows of a block `x` with the one weight row `w`, at edge `p`. -/
theorem rowDot_apply (x : Vec Ideal S16000x64 .f32) (w : Vec Ideal S1x64 .f32) (hb : S1x64.Broadcasts S16000x64)
    (hr : S16000x64.Reduces [1] S16000) (hφ : FKind.Formats .f32)
    (hacc : (0x00000000#32 : BitVec 32) = FKind.add.neutral .f32 hφ)
    (hc : S16000.ShapeCasts S16000x1) (p : Fin 16000) (u : Fin 1) :
    shapeCast S16000x1 (multiReduction (F := Ideal) .add [1] S16000
        (mulf x (broadcastTo S16000x64 w hb)) 0x00000000#32 hr hφ hacc) hc (ix2 p u)
      = ∑ k : Fin 64, x (ix2 p k) * w (ix2 (0 : Fin 1) k) := by
  refine (shapeCast_a_a1_apply _ hc p u).trans ?_
  refine (rowSum_apply _ hr hφ hacc p).trans ?_
  refine Finset.sum_congr rfl fun k _ => ?_
  rw [mulf_apply, broadcastTo_1b_ab_apply]

/-- What the body stores at edge `p`, feature `q` of its block. -/
theorem pay_apply (x0 x1 : Vec Ideal S16000x64 .f32) (x2 x3 : Vec Ideal S1x64 .f32) (x4 : Vec Ideal S1x1 .f32)
    (x5 : Vec Ideal S16000x1 .f32) (p : Fin 16000) (q : Fin 64) :
    k0_pay1 (F := Ideal) x0 x1 x2 x3 x4 x5 (ix2 p q)
      = gateEntry (fun k => x0 (ix2 p k)) (fun k => x1 (ix2 p k)) (fun k => x2 (ix2 (0 : Fin 1) k)) (fun k => x3 (ix2 (0 : Fin 1) k))
          (x4 (ix2 (0 : Fin 1) (0 : Fin 1))) (x5 (ix2 p (0 : Fin 1))) (x1 (ix2 p q)) := by
  unfold k0_pay1 gateEntry
  dsimp only
  simp only [shapeCast_self]
  refine (mulf_apply _ _ _).trans ?_
  rw [broadcastTo_a1_ab_apply]
  refine congrArg (x1 (ix2 p q) * ·) ?_
  refine (mulf_apply _ _ _).trans ?_
  refine congrArg (· * x5 (ix2 p (0 : Fin 1))) ?_
  rw [show ∀ (v : FVec Ideal S16000x1 .f32) (i : S16000x1.Idx), tanh v i = Ideal.tanh (v i) from fun _ _ => rfl]
  refine congrArg Ideal.tanh ?_
  refine (addf_apply _ _ _).trans ?_
  rw [broadcastTo_11_a1_apply]
  refine congrArg (· + x4 (ix2 (0 : Fin 1) (0 : Fin 1))) ?_
  refine (addf_apply _ _ _).trans ?_
  exact congrArg₂ (· + ·) (rowDot_apply x0 x2 _ _ _ _ _ p 0) (rowDot_apply x1 x3 _ _ _ _ _ p 0)

end Cert.KernelIdeal.Block

end
-- ==== Proof.KernelMsg.lean ====
/-
  The kernel's message array, and the program's result.

  The one region runs over 100 grid points; point `t` takes edges `16000·t … 16000·t + 15999`: the blocks of the
  gathered destination rows, source rows and degree factors at block row `t`, and the whole of the two weight halves
  and the bias. By `Cert.KernelIdeal.Block.pay_apply` what it writes back is block `t` of ONE array, the message array
  `Cert.GateMsg.msgArr` of the six arrays the region reads; the 100 blocks tile the 1600000 edges, so the region's
  output array ends holding that array whole. The program's result is then the scatter-add of this array into the
  destination nodes, read off the host operations after the region.
-/
import proofs.«103747_j83459804496277_1_alg».proof.Proof.Gen.KernelIdeal.Frame
import proofs.«103747_j83459804496277_1_alg».proof.Proof.KernelBlock
import Idealize.ShloMosaic.Lib.Pipeline.Value
import Idealize.ShloMosaic.Lib.StableHlo.Run

noncomputable section

namespace Cert.KernelIdeal.Msg

open Cert.KernelIdeal Cert.KernelIdeal.Gen Idealize.ShloMosaic Idealize.ShloMosaic.TcCoe Idealize.SL.Sem
open Idealize.ShloMosaic.ValueIdx Cert.GateMsg Cert.KernelIdeal.Block
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three edge-blocked inputs and the output sit at block row `t`, block column 0;
    the weights and the bias are always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## A window's block at a point, read off ANY array of the window's shape

Stated over an arbitrary array `A`, so that nothing here depends on what the region finds in it. -/

/-- Destination rows: entry `(p, k)` of point `t`'s block is row `e = 16000·t + p`, column `k`. -/
theorem read_hd (A : Vec Ideal S1600000x64 .f32) (t : Fin cfg0.N) (p : Fin 16000) (k : Fin 64) (e : Fin 1600000) (he : e.val = t.val * 16000 + p.val) :
    (((cfg0.win 0).blk t).view.read (Elt Ideal) A : Vec Ideal S16000x64 .f32) (ix2 p k) = A (ix2 e k) := by
  obtain ⟨e0, e1, -⟩ := idx_facts t
  rw [View.read_apply]
  show A _ = A _
  congr 1
  funext a
  apply Fin.ext
  match a with
  | ⟨0, _⟩ => show win0_0.index t 0 * 16000 + 1 * p.val = e.val; rw [e0, he]; omega
  | ⟨1, _⟩ => show win0_0.index t 1 * 64 + 1 * k.val = k.val; rw [e1]; omega

/-- Source rows, likewise. -/
theorem read_hs (A : Vec Ideal S1600000x64 .f32) (t : Fin cfg0.N) (p : Fin 16000) (k : Fin 64) (e : Fin 1600000) (he : e.val = t.val * 16000 + p.val) :
    (((cfg0.win 1).blk t).view.read (Elt Ideal) A : Vec Ideal S16000x64 .f32) (ix2 p k) = A (ix2 e k) := by
  obtain ⟨-, -, e0, e1, -⟩ := idx_facts t
  rw [View.read_apply]
  show A _ = A _
  congr 1
  funext a
  apply Fin.ext
  match a with
  | ⟨0, _⟩ => show win0_1.index t 0 * 16000 + 1 * p.val = e.val; rw [e0, he]; omega
  | ⟨1, _⟩ => show win0_1.index t 1 * 64 + 1 * k.val = k.val; rw [e1]; omega

/-- The first weight half is read whole at every point. -/
theorem read_wd (A : Vec Ideal S1x64 .f32) (t : Fin cfg0.N) (k : Fin 64) :
    (((cfg0.win 2).blk t).view.read (Elt Ideal) A : Vec Ideal S1x64 .f32) (ix2 (0 : Fin 1) k) = A (ix2 (0 : Fin 1) k) := by
  obtain ⟨-, -, -, -, e0, e1, -⟩ := idx_facts t
  rw [View.read_apply]
  show A _ = A _
  congr 1
  funext a
  apply Fin.ext
  match a with
  | ⟨0, _⟩ => show win0_2.index t 0 * 1 + 1 * 0 = 0; rw [e0]
  | ⟨1, _⟩ => show win0_2.index t 1 * 64 + 1 * k.val = k.val; rw [e1]; omega

/-- The second weight half, likewise. -/
theorem read_ws (A : Vec Ideal S1x64 .f32) (t : Fin cfg0.N) (k : Fin 64) :
    (((cfg0.win 3).blk t).view.read (Elt Ideal) A : Vec Ideal S1x64 .f32) (ix2 (0 : Fin 1) k) = A (ix2 (0 : Fin 1) k) := by
  obtain ⟨-, -, -, -, -, -, e0, e1, -⟩ := idx_facts t
  rw [View.read_apply]
  show A _ = A _
  congr 1
  funext a
  apply Fin.ext
  match a with
  | ⟨0, _⟩ => show win0_3.index t 0 * 1 + 1 * 0 = 0; rw [e0]
  | ⟨1, _⟩ => show win0_3.index t 1 * 64 + 1 * k.val = k.val; rw [e1]; omega

/-- The bias. -/
theorem read_b (A : Vec Ideal S1x1 .f32) (t : Fin cfg0.N) :
    (((cfg0.win 4).blk t).view.read (Elt Ideal) A : Vec Ideal S1x1 .f32) (ix2 (0 : Fin 1) (0 : Fin 1)) = A (ix2 (0 : Fin 1) (0 : Fin 1)) := by
  obtain ⟨-, -, -, -, -, -, -, -, e0, e1, -⟩ := idx_facts t
  rw [View.read_apply]
  show A _ = A _
  congr 1
  funext a
  apply Fin.ext
  match a with
  | ⟨0, _⟩ => show win0_4.index t 0 * 1 + 1 * 0 = 0; rw [e0]
  | ⟨1, _⟩ => show win0_4.index t 1 * 1 + 1 * 0 = 0; rw [e1]

/-- Degree factors: entry `p` of point `t`'s block is edge `e = 16000·t + p`. -/
theorem read_np (A : Vec Ideal S1600000x1 .f32) (t : Fin cfg0.N) (p : Fin 16000) (e : Fin 1600000) (he : e.val = t.val * 16000 + p.val) :
    (((cfg0.win 5).blk t).view.read (Elt Ideal) A : Vec Ideal S16000x1 .f32) (ix2 p (0 : Fin 1)) = A (ix2 e (0 : Fin 1)) := by
  obtain ⟨-, -, -, -, -, -, -, -, -, -, e0, e1, -⟩ := idx_facts t
  rw [View.read_apply]
  show A _ = A _
  congr 1
  funext a
  apply Fin.ext
  match a with
  | ⟨0, _⟩ => show win0_5.index t 0 * 16000 + 1 * p.val = e.val; rw [e0, he]; omega
  | ⟨1, _⟩ => show win0_5.index t 1 * 1 + 1 * 0 = 0; rw [e1]

/-! ## The message array -/

/-- What a point computes at an entry of its block, for ANY six arrays of the windows' shapes: with its inputs the six
    arrays' blocks at point `t`, entry `y` of the body's result is the message array of the six arrays at the entry's
    place `i` among all edges (`16000·t` rows further down). -/
theorem point_gen (HD HS : Vec Ideal S1600000x64 .f32) (WD WS : Vec Ideal S1x64 .f32) (B : Vec Ideal S1x1 .f32)
    (NP : Vec Ideal S1600000x1 .f32) (t : Fin cfg0.N) (y : S16000x64.Idx) (i : S1600000x64.Idx)
    (hi0 : (i 0).val = t.val * 16000 + (y 0).val) (hi1 : (i 1).val = (y 1).val) :
    k0_pay1 (F := Ideal) (((cfg0.win 0).blk t).view.read (Elt Ideal) HD) (((cfg0.win 1).blk t).view.read (Elt Ideal) HS)
        (((cfg0.win 2).blk t).view.read (Elt Ideal) WD) (((cfg0.win 3).blk t).view.read (Elt Ideal) WS)
        (((cfg0.win 4).blk t).view.read (Elt Ideal) B) (((cfg0.win 5).blk t).view.read (Elt Ideal) NP) y
      = msgArr HD HS (fun k => WD (ix2 (0 : Fin 1) k)) (fun k => WS (ix2 (0 : Fin 1) k)) (B (ix2 (0 : Fin 1) (0 : Fin 1)))
          (fun p => NP (ix2 p (0 : Fin 1))) i := by
  obtain ⟨p, q, rfl⟩ : ∃ (p : Fin 16000) (q : Fin 64), y = ix2 p q := ⟨y 0, y 1, eq_ix2 y⟩
  obtain ⟨e, r, rfl⟩ : ∃ (e : Fin 1600000) (r : Fin 64), i = ix2 e r := ⟨i 0, i 1, eq_ix2 i⟩
  have hqr : q = r := Fin.ext hi1.symm
  subst hqr
  refine (pay_apply _ _ _ _ _ _ p q).trans ?_
  exact gateEntry_congr (fun k => read_hd HD t p k e hi0) (fun k => read_hs HS t p k e hi0)
    (fun k => read_wd WD t k) (fun k => read_ws WS t k) (read_b B t) (read_np NP t p e hi0)
    (read_hs HS t p q e hi0)

/-- The six arrays as the region finds them on core `c`, each at its literal shape. -/
abbrev aHd (c : Dev nD) : Vec Ideal S1600000x64 .f32 := V m c (Pipeline.arrRef spec0 0)
abbrev aHs (c : Dev nD) : Vec Ideal S1600000x64 .f32 := V m c (Pipeline.arrRef spec0 1)
abbrev aWd (c : Dev nD) : Vec Ideal S1x64 .f32 := V m c (Pipeline.arrRef spec0 2)
abbrev aWs (c : Dev nD) : Vec Ideal S1x64 .f32 := V m c (Pipeline.arrRef spec0 3)
abbrev aB (c : Dev nD) : Vec Ideal S1x1 .f32 := V m c (Pipeline.arrRef spec0 4)
abbrev aNp (c : Dev nD) : Vec Ideal S1600000x1 .f32 := V m c (Pipeline.arrRef spec0 5)

/-- The message array of those six arrays. -/
abbrev M (c : Dev nD) : Vec Ideal S1600000x64 .f32 :=
  msgArr (aHd m c) (aHs m c) (fun k => aWd m c (ix2 (0 : Fin 1) k)) (fun k => aWs m c (ix2 (0 : Fin 1) k))
    (aB m c (ix2 (0 : Fin 1) (0 : Fin 1))) (fun p => aNp m c (ix2 p (0 : Fin 1)))

/-- WHAT POINT `t` WRITES BACK is block `t` of the message array. -/
theorem flushed_eq (c : Dev nD) (t : Fin cfg0.N) :
    (dats m 0 c).flushed 6 t = ((cfg0.win 6).blk t).view.read (Elt Ideal) (M m c) := by
  show (cfg0.win 6).cut (grid0.coords t) ((dats m 0 c).after 6 t) = _
  rw [after0_6]
  unfold out0_6
  rw [View.canon_unit_zero hz]
  simp only [View.ld_unit_zero (S := S16000x64) hz, View.ld_unit_zero (S := S1x64) hz, View.ld_unit_zero (S := S1x1) hz,
    View.ld_unit_zero (S := S16000x1) hz]
  obtain ⟨-, -, -, -, -, -, -, -, -, -, -, -, e0, e1⟩ := idx_facts t
  funext j
  exact point_gen (aHd m c) (aHs m c) (aWd m c) (aWs m c) (aB m c) (aNp m c) t j (((cfg0.win 6).blk t).view.emb j)
    (by show win0_6.index t 0 * 16000 + 1 * (j 0).val = t.val * 16000 + (j 0).val; rw [e0]; omega)
    (by show win0_6.index t 1 * 64 + 1 * (j 1).val = (j 1).val; rw [e1]; omega)

/-- An index of the output array is in point `t`'s block iff each coordinate is in the block's range on its axis. -/
theorem mem_blk (t : Fin cfg0.N) (i : S1600000x64.Idx) :
    i ∈ ((cfg0.win 6).blk t).view.set ↔ ∀ a : Fin 2, win0_6.index t a * S16000x64.size a ≤ (i a).val ∧ (i a).val < win0_6.index t a * S16000x64.size a + S16000x64.size a := by
  show i ∈ ((View.whole main_v40).slice (win0_6.rect t)).set ↔ _
  rw [View.set_slice_whole, Rect.mem_set_unit]
  exact Iff.rfl

/-- Every edge lies in the block of the point `edge / 16000`. -/
theorem cover (i : S1600000x64.Idx) : ∃ t : Fin cfg0.N, (cfg0.win 6).flush t = true ∧ i ∈ ((cfg0.win 6).blk t).view.set := by
  have hi0 : (i 0).val < 1600000 := (i 0).isLt
  have hi1 : (i 1).val < 64 := (i 1).isLt
  have hN : grid0.N = 100 := N_0
  refine ⟨⟨(i 0).val / 16000, by show (i 0).val / 16000 < grid0.N; rw [hN]; omega⟩, flush0_6 _, ?_⟩
  rw [mem_blk]
  obtain ⟨-, -, -, -, -, -, -, -, -, -, -, -, e0, e1⟩ := idx_facts ⟨(i 0).val / 16000, by show (i 0).val / 16000 < grid0.N; rw [hN]; omega⟩
  intro a
  match a with
  | ⟨0, _⟩ =>
    show win0_6.index _ 0 * 16000 ≤ (i 0).val ∧ (i 0).val < win0_6.index _ 0 * 16000 + 16000
    rw [e0]; show (i 0).val / 16000 * 16000 ≤ (i 0).val ∧ (i 0).val < (i 0).val / 16000 * 16000 + 16000; omega
  | ⟨1, _⟩ =>
    show win0_6.index _ 1 * 64 ≤ (i 1).val ∧ (i 1).val < win0_6.index _ 1 * 64 + 64
    rw [e1]; omega

/-- THE OUTPUT ARRAY after the region is the message array. -/
theorem arr_final (c : Dev nD) : (dats m 0 c).arrAt 6 cfg0.N = M m c :=
  (dats m 0 c).arrAt_eq_of_cover 6 (M m c) (fun t _ => flushed_eq m c t) cover

/-! ## The program's result -/

/-- The scatter-add of a message array into the destination nodes: the host operations after the region, as one function. -/
def scatterMsg (dst : (⟨S1600000, .i32⟩ : BufTy).Contents (Elt Ideal)) (msg : Vec Ideal S1600000x64 .f32) : Vec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) msg

/-- After the frame run the result buffer holds the scatter-add of the message array. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v43) = scatterMsg (m ((c : Thread nD τ).loc main_arg4)) (M m c) := by
  refine ((h c).2 main_v43 (Pipeline.mem_restRefs_of main_v43 (by decide) (by decide))).trans ?_
  unfold Pipeline.afterTail₀
  show StableHlo.after hostOps1 _ (Proc.devRef .tc main_v43) = _
  after_results
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have e6 : Pipeline.withArrays (cfgs 0).spec c (V0 m c) (fun w => (dats m 0 c).arrAt w (cfgs 0).N) (Proc.devRef .tc main_v40)
      = M m c :=
    (Pipeline.withArrays_arr spec0 launch0.win.arr_inj c (V0 m c) _ 6).trans (arr_final m c)
  rw [e4, e6]
  rfl

/-- THE RUN, read: every weakly fair execution of the program terminates with the result buffer at the scatter-add of
    the message array and the five arguments unchanged. -/
theorem run : θ_run defs (onTc (τ := τ) (main (F := Ideal))) ⟨m, fun _ => 0, ρ⟩ fun r => ∀ c : Dev nD,
      r.2.mem ((c.tc : Thread nD τ).loc main_v43) = scatterMsg (m ((c.tc : Thread nD τ).loc main_arg4)) (M m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨result_eq m r h c,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Msg

end
-- ==== Proof.RefStages.lean ====
/-
  The reference's message array, read entry by entry.

  Before its final scatter the reference holds, for every edge `p` and feature `q`, the source row's feature times
  `((tanh (⟨cat p, w⟩ + b)) · nd p) · ns p`, where `cat p` is the destination row followed by the source row
  (128 numbers), `w` the 128 gate weights read as a column, `b` the bias, and `nd p`, `ns p` the degree factors of
  the edge's two ends. Reading the program one operation at a time and regrouping (the law of
  `Cert.GateMsg.ref_grouping`) gives the same entry the kernel stores: the two 64-term inner products, the bias,
  and the one degree factor `ns p · nd p`.
-/
import proofs.«103747_j83459804496277_1_alg».proof.Proof.Gen.ReferenceIdeal.Run
import proofs.«103747_j83459804496277_1_alg».proof.Proof.Gen.ReferenceIdeal.Read
import proofs.«103747_j83459804496277_1_alg».proof.Proof.GateLaw

noncomputable section

namespace Cert.ReferenceIdeal.RefMsg

open Cert.ReferenceIdeal Cert.ReferenceIdeal.Gen Cert.ReferenceIdeal.Read Idealize.ShloMosaic Idealize.ShloMosaic.ValueIdx Cert.GateMsg

variable (x0 : (⟨S100000x64, .f32⟩ : BufTy).Contents (Elt Ideal)) (x1 : (⟨S1x128, .f32⟩ : BufTy).Contents (Elt Ideal))
  (x2 : (⟨S1, .f32⟩ : BufTy).Contents (Elt Ideal)) (x3 x4 : (⟨S1600000, .i32⟩ : BufTy).Contents (Elt Ideal))

/-- The concatenated row of edge `p` begins with the destination row. -/
theorem cat_left (p : Fin 1600000) (k : Fin 64) :
    val_main_v21 (F := Ideal) x0 x3 x4 (ix2 p (Fin.castAdd 64 k : Fin 128)) = val_main_v20 (F := Ideal) x0 x4 (ix2 p k) := by
  unfold val_main_v21
  exact concatenate_pair_apply_left (t := S1600000x128) (s₁ := S1600000x64) (s₂ := S1600000x64) (1 : Fin 2) _ _ _
    (ix2 p (Fin.castAdd 64 k : Fin 128)) rfl (ix2 p k) (fun b => by
    match b with
    | ⟨0, _⟩ => rfl
    | ⟨1, _⟩ => rfl)

/-- … and ends with the source row. -/
theorem cat_right (p : Fin 1600000) (k : Fin 64) :
    val_main_v21 (F := Ideal) x0 x3 x4 (ix2 p (Fin.natAdd 64 k : Fin 128)) = val_main_v13 (F := Ideal) x0 x3 (ix2 p k) := by
  unfold val_main_v21
  exact concatenate_pair_apply_right (t := S1600000x128) (s₁ := S1600000x64) (s₂ := S1600000x64) (1 : Fin 2) _ _ _
    (ix2 p (Fin.natAdd 64 k : Fin 128)) rfl rfl (ix2 p k) (fun b hb => by
    match b with
    | ⟨0, _⟩ => rfl
    | ⟨1, _⟩ => exact absurd rfl hb) (by show k.val + 64 = 64 + k.val; omega)

/-- The reference's message array at edge `p`, feature `q`. -/
theorem msg_apply (p : Fin 1600000) (q : Fin 64) :
    val_main_v47 (F := Ideal) x0 x1 x2 x3 x4 (ix2 p q)
      = gateEntry (fun k => val_main_v20 (F := Ideal) x0 x4 (ix2 p k)) (fun k => val_main_v13 (F := Ideal) x0 x3 (ix2 p k))
          (fun k => x1 (ix2 (0 : Fin 1) (Fin.castAdd 64 k : Fin 128))) (fun k => x1 (ix2 (0 : Fin 1) (Fin.natAdd 64 k : Fin 128)))
          (x2 (ix1 (0 : Fin 1))) (val_main_v43 (F := Ideal) x3 x4 (ix1 p) * val_main_v35 (F := Ideal) x4 (ix1 p))
          (val_main_v13 (F := Ideal) x0 x3 (ix2 p q)) := by
  rw [val_main_v47_apply, val_main_v46_apply, val_main_v45_apply, val_main_v44_apply, val_main_v36_apply, val_main_v28_apply,
    val_main_v27_apply, val_main_v26_apply, val_main_v23_apply, val_main_v25_apply, val_main_v24_apply]
  simp only [val_main_v22_apply, Ideal.mulf_def, Ideal.addf_def, Ideal.hostUnary_tanh_def]
  have e46 : idx_main_v45 (idx_main_v46 (ix2 p q)) = ix1 p := funext fun a => Fin.ext (by
    match a with
    | ⟨0, _⟩ => rfl)
  have e28 : idx_main_v28 (ix1 p) = ix2 p (0 : Fin 1) := funext fun a => Fin.ext (by
    match a with
    | ⟨0, _⟩ => exact Nat.div_one _
    | ⟨1, _⟩ => rfl)
  have el : ∀ k : Fin 128, lidx_main_v23 (ix2 p (0 : Fin 1)) k = ix2 p k := fun k => funext fun a => Fin.ext (by
    match a with
    | ⟨0, _⟩ => rfl
    | ⟨1, _⟩ => rfl)
  have er : ∀ k : Fin 128, idx_main_v22 (ridx_main_v23 (ix2 p (0 : Fin 1)) k) = ix2 (0 : Fin 1) k := fun k => funext fun a => Fin.ext (by
    match a with
    | ⟨0, _⟩ => rfl
    | ⟨1, _⟩ => rfl)
  have eb : idx_main_v24 (idx_main_v25 (ix2 p (0 : Fin 1))) = ix1 (0 : Fin 1) := funext fun a => Fin.ext (by
    match a with
    | ⟨0, _⟩ => rfl)
  rw [e46, e28, eb]
  simp only [el, er]
  exact ref_grouping _ _ _ _ (fun k => val_main_v21 (F := Ideal) x0 x3 x4 (ix2 p k)) (fun k => x1 (ix2 (0 : Fin 1) k)) _ _ _ _
    (cat_left x0 x3 x4 p) (cat_right x0 x3 x4 p) (fun _ => rfl) (fun _ => rfl)

end Cert.ReferenceIdeal.RefMsg

end
-- ==== Proof.RegionInputs.lean ====
/-
  The six arrays the kernel's region reads, as functions of the program's arguments.

  Before the region the host code computes, from the arguments `x` (node features), `gate_w`, `gate_b`, `src`, `dst`:
  the gathered destination rows and source rows, the two halves of the gate weights, the bias as a 1 × 1 array, and
  the column of degree factors `norm[src] · norm[dst]`. The reference program computes the same gathers and the same
  `norm` by the same operations, so the first two arrays and the two factors of the last ARE the reference's own
  stages of the same arguments; the weight halves and the bias are read at an index as entries of `gate_w`, `gate_b`.
-/
import proofs.«103747_j83459804496277_1_alg».proof.Proof.Gen.KernelIdeal.Frame
import proofs.«103747_j83459804496277_1_alg».proof.Proof.Gen.ReferenceIdeal.Read
import Idealize.ShloMosaic.Lib.StableHlo.Run
import Idealize.ShloMosaic.Lib.ValueLayout

noncomputable section

namespace Cert.KernelIdeal.RegionInputs

open Cert.KernelIdeal Cert.KernelIdeal.Gen Idealize.ShloMosaic Idealize.ShloMosaic.TcCoe Idealize.SL.Sem Idealize.ShloMosaic.ValueIdx
open Idealize.ShloMosaic.StableHlo

/-- Running one stretch of host operations after another is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt Ideal) ℓ)

/-- The three operations of the clamp `max 1 deg` (a module-local function, called once), written over the plain buffers. -/
abbrev clipOps : List (HloOp τ sig (Elt Ideal)) :=
  [ StableHlo.unary main_cst_1 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.binary main_call0_v1 main_v3 main_v4 (maximumf (F := Ideal) (s := S100000) (φ := .f32)) ]

/-- The called function's stretch is those three operations. -/
theorem hostOps0_1_eq : (hostOps0_1 : List (HloOp τ sig (Elt Ideal))) = clipOps := rfl

/-- The contents the region finds are the launch contents after the three stretches of host operations in turn. -/
theorem V0_eq (c : Dev nD) : V0 m c = after hostOps0_2 (after clipOps (after hostOps0 (fun b => m (c, b)))) := by
  show after (hostOps0 ++ (hostOps0_1 ++ (hostOps0_2 ++ []))) _ = _
  rw [after_append, after_append, after_append, hostOps0_1_eq]
  rfl

set_option maxRecDepth 8192 in
set_option maxHeartbeats 4000000 in
/-- The destination rows: `x` gathered at `dst`. -/
theorem V_hd (c : Dev nD) :
    V m c main_v20 = Cert.ReferenceIdeal.Read.val_main_v20 (F := Ideal) (m ((c : Thread nD τ).loc main_arg0)) (m ((c : Thread nD τ).loc main_arg4)) := by
  show V0 m c (Proc.devRef .tc main_v20) = _
  rw [V0_eq]
  after_results_simp <;> rfl

set_option maxRecDepth 8192 in
set_option maxHeartbeats 4000000 in
/-- The source rows: `x` gathered at `src`. -/
theorem V_hs (c : Dev nD) :
    V m c main_v13 = Cert.ReferenceIdeal.Read.val_main_v13 (F := Ideal) (m ((c : Thread nD τ).loc main_arg0)) (m ((c : Thread nD τ).loc main_arg3)) := by
  show V0 m c (Proc.devRef .tc main_v13) = _
  rw [V0_eq]
  after_results_simp <;> rfl

set_option maxRecDepth 8192 in
set_option maxHeartbeats 4000000 in
/-- The first 64 gate weights. -/
theorem V_wd (c : Dev nD) :
    V m c main_v37 = extractStridedSlice S1x64 ![0, 0] (m ((c : Thread nD τ).loc main_arg1)) slices_S1x128_S1x64_0_0 := by
  show V0 m c (Proc.devRef .tc main_v37) = _
  rw [V0_eq]
  after_results_simp <;> rfl

set_option maxRecDepth 8192 in
set_option maxHeartbeats 4000000 in
/-- The last 64 gate weights. -/
theorem V_ws (c : Dev nD) :
    V m c main_v38 = extractStridedSlice S1x64 ![0, 64] (m ((c : Thread nD τ).loc main_arg1)) slices_S1x128_S1x64_0_64 := by
  show V0 m c (Proc.devRef .tc main_v38) = _
  rw [V0_eq]
  after_results_simp <;> rfl

set_option maxRecDepth 8192 in
set_option maxHeartbeats 4000000 in
/-- The bias, reshaped to 1 × 1. -/
theorem V_b (c : Dev nD) :
    V m c main_v39 = shapeCast S1x1 (m ((c : Thread nD τ).loc main_arg2)) shapeCasts_S1_S1x1 := by
  show V0 m c (Proc.devRef .tc main_v39) = _
  rw [V0_eq]
  after_results_simp <;> rfl

set_option maxRecDepth 8192 in
set_option maxHeartbeats 8000000 in
/-- The degree factors: the source's times the destination's, as a column. -/
theorem V_np (c : Dev nD) :
    (V m c main_v36 : Vec Ideal S1600000x1 .f32) = broadcastInDim S1600000x1 ![0] bcast_S1600000_S1600000x1_0
      (mulf (F := Ideal) (s := S1600000) (φ := .f32)
        (Cert.ReferenceIdeal.Read.val_main_v43 (F := Ideal) (m ((c : Thread nD τ).loc main_arg3)) (m ((c : Thread nD τ).loc main_arg4)))
        (Cert.ReferenceIdeal.Read.val_main_v35 (F := Ideal) (m ((c : Thread nD τ).loc main_arg4)))) := by
  show V0 m c (Proc.devRef .tc main_v36) = _
  rw [V0_eq]
  after_results_simp <;> rfl

/-! ## The windows' arrays are those six buffers -/

/-- The contents found at a reference depend only on the reference. -/
theorem V_ref_congr (c : Dev nD) {r r' : Ref sig .tc} (h : r = r') : HEq (V m c r) (V m c r') := by
  cases h; exact HEq.rfl

theorem arr0_eq (c : Dev nD) : (V m c (Pipeline.arrRef spec0 0) : Vec Ideal S1600000x64 .f32) = (V m c main_v20 : Vec Ideal S1600000x64 .f32) :=
  eq_of_heq (V_ref_congr m c (r := Pipeline.arrRef spec0 0) (r' := main_v20) rfl)
theorem arr1_eq (c : Dev nD) : (V m c (Pipeline.arrRef spec0 1) : Vec Ideal S1600000x64 .f32) = (V m c main_v13 : Vec Ideal S1600000x64 .f32) :=
  eq_of_heq (V_ref_congr m c (r := Pipeline.arrRef spec0 1) (r' := main_v13) rfl)
theorem arr2_eq (c : Dev nD) : (V m c (Pipeline.arrRef spec0 2) : Vec Ideal S1x64 .f32) = (V m c main_v37 : Vec Ideal S1x64 .f32) :=
  eq_of_heq (V_ref_congr m c (r := Pipeline.arrRef spec0 2) (r' := main_v37) rfl)
theorem arr3_eq (c : Dev nD) : (V m c (Pipeline.arrRef spec0 3) : Vec Ideal S1x64 .f32) = (V m c main_v38 : Vec Ideal S1x64 .f32) :=
  eq_of_heq (V_ref_congr m c (r := Pipeline.arrRef spec0 3) (r' := main_v38) rfl)
theorem arr4_eq (c : Dev nD) : (V m c (Pipeline.arrRef spec0 4) : Vec Ideal S1x1 .f32) = (V m c main_v39 : Vec Ideal S1x1 .f32) :=
  eq_of_heq (V_ref_congr m c (r := Pipeline.arrRef spec0 4) (r' := main_v39) rfl)
theorem arr5_eq (c : Dev nD) : (V m c (Pipeline.arrRef spec0 5) : Vec Ideal S1600000x1 .f32) = (V m c main_v36 : Vec Ideal S1600000x1 .f32) :=
  eq_of_heq (V_ref_congr m c (r := Pipeline.arrRef spec0 5) (r' := main_v36) rfl)

/-! ## Their entries -/

/-- Row `p`, feature `k` of window 0's array: the reference's gathered destination rows. -/
theorem hd_apply (c : Dev nD) (i : S1600000x64.Idx) :
    (V m c (Pipeline.arrRef spec0 0) : Vec Ideal S1600000x64 .f32) i
      = Cert.ReferenceIdeal.Read.val_main_v20 (F := Ideal) (m ((c : Thread nD τ).loc main_arg0)) (m ((c : Thread nD τ).loc main_arg4)) i := by
  rw [arr0_eq, V_hd]

/-- The same for window 1's array and the gathered source rows. -/
theorem hs_apply (c : Dev nD) (i : S1600000x64.Idx) :
    (V m c (Pipeline.arrRef spec0 1) : Vec Ideal S1600000x64 .f32) i
      = Cert.ReferenceIdeal.Read.val_main_v13 (F := Ideal) (m ((c : Thread nD τ).loc main_arg0)) (m ((c : Thread nD τ).loc main_arg3)) i := by
  rw [arr1_eq, V_hs]

/-- Weight `k` of the first half is gate weight `k`. -/
theorem wd_apply (c : Dev nD) (k : Fin 64) :
    (V m c (Pipeline.arrRef spec0 2) : Vec Ideal S1x64 .f32) (ix2 (0 : Fin 1) k)
      = (m ((c : Thread nD τ).loc main_arg1) : Vec Ideal S1x128 .f32) (ix2 (0 : Fin 1) (Fin.castAdd 64 k : Fin 128)) := by
  rw [arr2_eq, V_wd]
  exact slice2_axis1_apply 0 _ _ (0 : Fin 1) k (Fin.castAdd 64 k : Fin 128) (by show k.val = 0 + k.val; omega)

/-- Weight `k` of the second half is gate weight `64 + k`. -/
theorem ws_apply (c : Dev nD) (k : Fin 64) :
    (V m c (Pipeline.arrRef spec0 3) : Vec Ideal S1x64 .f32) (ix2 (0 : Fin 1) k)
      = (m ((c : Thread nD τ).loc main_arg1) : Vec Ideal S1x128 .f32) (ix2 (0 : Fin 1) (Fin.natAdd 64 k : Fin 128)) := by
  rw [arr3_eq, V_ws]
  exact slice2_axis1_apply 64 _ _ (0 : Fin 1) k (Fin.natAdd 64 k : Fin 128) rfl

/-- The 1 × 1 bias array holds the bias. -/
theorem b_apply (c : Dev nD) :
    (V m c (Pipeline.arrRef spec0 4) : Vec Ideal S1x1 .f32) (ix2 (0 : Fin 1) (0 : Fin 1))
      = (m ((c : Thread nD τ).loc main_arg2) : Vec Ideal S1 .f32) (ix1 (0 : Fin 1)) := by
  rw [arr4_eq, V_b]
  exact shapeCast_a_1a_apply _ _ (0 : Fin 1) (0 : Fin 1)

/-- The degree factor of edge `p`: the source's times the destination's. -/
theorem np_apply (c : Dev nD) (p : Fin 1600000) :
    (V m c (Pipeline.arrRef spec0 5) : Vec Ideal S1600000x1 .f32) (ix2 p (0 : Fin 1))
      = Cert.ReferenceIdeal.Read.val_main_v43 (F := Ideal) (m ((c : Thread nD τ).loc main_arg3)) (m ((c : Thread nD τ).loc main_arg4)) (ix1 p)
        * Cert.ReferenceIdeal.Read.val_main_v35 (F := Ideal) (m ((c : Thread nD τ).loc main_arg4)) (ix1 p) := by
  rw [arr5_eq, V_np]
  refine (broadcastInDim_apply _ _ _ (ix2 p (0 : Fin 1)) (ix1 p) (fun a => ?_)).trans (mulf_apply _ _ _)
  match a with
  | ⟨0, _⟩ => show p.val = if (1600000 : Nat) = 1 then 0 else p.val; rw [if_neg (by decide)]

end Cert.KernelIdeal.RegionInputs

end
-- ==== Proof.Bridge.lean ====
/-
  The two programs compute one array.

  The kernel's message array (`Cert.KernelIdeal.Msg.M`: the region's output) is built from six arrays the host code
  prepares; the reference's message array (its stage before the final scatter) from the same gathers and degree factors
  of the same arguments. Entry by entry both are `Cert.GateMsg.gateEntry` of equal data: the gathered rows are the same
  stages, the kernel's two weight rows are the two halves of the reference's 128 weights, the 1 × 1 bias is the bias, and
  the kernel's degree factor of an edge is the product of the reference's two. The final scatter-add into the destination
  nodes is the same operation of the same indices on both sides, so the results are equal.
-/
import proofs.«103747_j83459804496277_1_alg».proof.Proof.KernelMsg
import proofs.«103747_j83459804496277_1_alg».proof.Proof.RefStages
import proofs.«103747_j83459804496277_1_alg».proof.Proof.RegionInputs

noncomputable section

namespace Cert.KernelIdeal.Bridge

open Cert.KernelIdeal Cert.KernelIdeal.Gen Cert.KernelIdeal.Msg Cert.KernelIdeal.RegionInputs
open Idealize.ShloMosaic Idealize.ShloMosaic.TcCoe Idealize.SL.Sem Idealize.ShloMosaic.ValueIdx Cert.GateMsg

/-- The message array at edge `p`, feature `q`. -/
theorem msgArr_ix2 (hd hs : (⟨2, ![1600000, 64]⟩ : Shape).Idx → EReal) (wd ws : Fin 64 → EReal) (b : EReal) (np : Fin 1600000 → EReal)
    (p : Fin 1600000) (q : Fin 64) :
    msgArr hd hs wd ws b np (ix2 p q) = gateEntry (fun k => hd (ix2 p k)) (fun k => hs (ix2 p k)) wd ws b (np p) (hs (ix2 p q)) := rfl

variable (m : (ℓ : Loc nD τ sig) → Buf (Elt Ideal) ℓ)

/-- The kernel's message array is the reference's, as functions of the arguments. -/
theorem M_eq (c : Dev nD) :
    M m c = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨p, q, rfl⟩ : ∃ (p : Fin 1600000) (q : Fin 64), i = ix2 p q := ⟨i 0, i 1, eq_ix2 i⟩
  refine (msgArr_ix2 _ _ _ _ _ _ p q).trans ?_
  refine Eq.trans ?_ (Cert.ReferenceIdeal.RefMsg.msg_apply _ _ _ _ _ p q).symm
  exact gateEntry_congr (fun k => hd_apply m c (ix2 p k)) (fun k => hs_apply m c (ix2 p k))
    (fun k => wd_apply m c k) (fun k => ws_apply m c k) (b_apply m c) (np_apply m c p) (hs_apply m c (ix2 p q))

/-- The kernel program's result is the reference program's, as functions of the arguments. -/
theorem result_eq (c : Dev nD) :
    scatterMsg (m ((c : Thread nD τ).loc main_arg4)) (M m c)
      = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [M_eq]
  rfl

end Cert.KernelIdeal.Bridge

end
-- ==== Proof.lean ====
/-
  A gated message-passing layer over a graph of 100000 nodes and 1600000 edges, 64 features a node.

  Both programs take node features `x`, 128 gate weights, a bias, and the edges' source and destination indices. With
  `norm` the inverse square root of each node's in-degree (clamped below at 1), every edge `p` sends, for each feature,

      x[src p] · ( tanh( ⟨x[dst p], w₀…₆₃⟩ + ⟨x[src p], w₆₄…₁₂₇⟩ + b ) · norm[src p] · norm[dst p] ),

  and the result sums the messages arriving at each destination node. The kernel computes the message array in one
  region over blocks of 16000 edges, from the two inner products taken separately and the two degree factors multiplied
  first; the reference contracts the concatenated rows against all 128 weights and multiplies the gate by the two factors
  in turn. On the extended reals the two readings of an entry agree by splitting a 128-term sum at 64 and by
  commutativity and associativity of the product (Proof/GateLaw.lean), so the message arrays are one array
  (Proof/Bridge.lean) and so are their scatter-adds into the destination nodes. The precondition is not used.

  The kernel's frame and the reference's run are the generated ones; the idealization rewrote nothing, so `preserves`
  has nothing to state.
-/
import proofs.«103747_j83459804496277_1_alg».proof.Defs
import proofs.«103747_j83459804496277_1_alg».proof.Proof.Gen.Kernel
import proofs.«103747_j83459804496277_1_alg».proof.Proof.Gen.Kernel.Skeleton
import proofs.«103747_j83459804496277_1_alg».proof.Proof.Gen.Kernel.Launch
import proofs.«103747_j83459804496277_1_alg».proof.Proof.Gen.Kernel.Points
import proofs.«103747_j83459804496277_1_alg».proof.Proof.Gen.Kernel.Frame
import proofs.«103747_j83459804496277_1_alg».proof.Proof.Gen.KernelIdeal
import proofs.«103747_j83459804496277_1_alg».proof.Proof.Gen.KernelIdeal.Skeleton
import proofs.«103747_j83459804496277_1_alg».proof.Proof.Gen.KernelIdeal.Launch
import proofs.«103747_j83459804496277_1_alg».proof.Proof.Gen.KernelIdeal.Points
import proofs.«103747_j83459804496277_1_alg».proof.Proof.Gen.KernelIdeal.Frame
import proofs.«103747_j83459804496277_1_alg».proof.Proof.Gen.ReferenceIdeal
import proofs.«103747_j83459804496277_1_alg».proof.Proof.Gen.ReferenceIdeal.Run
import proofs.«103747_j83459804496277_1_alg».proof.Proof.Gen.ReferenceIdeal.Read
import proofs.«103747_j83459804496277_1_alg».proof.Proof.Gen.Pre_finite_inputs
import proofs.«103747_j83459804496277_1_alg».proof.Proof.Bridge
import Idealize.ShloMosaic.Adequacy
import Idealize.ShloMosaic.Init

noncomputable section

namespace Cert.Proof

open Idealize.ShloMosaic Idealize.SL.Sem

/-- The kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel ends at the scatter-add of its message array and the reference at the scatter-add
    of its own: the same function of the arguments. -/
theorem algebraic : Cert.algebraic_KernelIdeal_ReferenceIdeal := by
  intro m ρ m' ρ' _ hagree
  refine ⟨fun c => Cert.KernelIdeal.Msg.scatterMsg (m ((c.tc : Thread Cert.KernelIdeal.nD Cert.KernelIdeal.τ).loc Cert.KernelIdeal.main_arg4))
      (Cert.KernelIdeal.Msg.M m c), Cert.KernelIdeal.Msg.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v50_eq, (hagree c).1, (hagree c).2.1, (hagree c).2.2.1, (hagree c).2.2.2.1, (hagree c).2.2.2.2]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
